-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S1x64 : Shape := ⟨2, ![1, 64]⟩
abbrev S64 : Shape := ⟨1, ![64]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x1 .f32) (main_arg1 : FVec F S1x64 .f32) (main_arg2 : FVec F S64 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x1 : Shape := ⟨2, ![8192, 1]⟩
abbrev S1x64 : Shape := ⟨2, ![1, 64]⟩
abbrev S64 : Shape := ⟨1, ![64]⟩
abbrev S8192x64 : Shape := ⟨2, ![8192, 64]⟩
abbrev S1024x1 : Shape := ⟨2, ![1024, 1]⟩
abbrev S1024x64 : Shape := ⟨2, ![1024, 64]⟩
abbrev S1024 : Shape := ⟨1, ![1024]⟩
abbrev S64x8192 : Shape := ⟨2, ![64, 8192]⟩
abbrev S128x64 : Shape := ⟨2, ![128, 64]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S8192x1, .f32⟩
  | .hbm, ⟨1, _⟩ => ⟨S1x64, .f32⟩
  | .hbm, ⟨2, _⟩ => ⟨S64, .f32⟩
  | .hbm, ⟨3, _⟩ => ⟨S1x64, .f32⟩
  | .hbm, ⟨4, _⟩ => ⟨S8192x64, .f32⟩
  | .hbm, ⟨5, _⟩ => ⟨S8192x64, .bf16⟩
  | .hbm, ⟨6, _⟩ => ⟨S64x8192, .bf16⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x64, .bf16⟩
  | .local _ .vmem, ⟨7, _⟩ => ⟨S1024x64, .bf16⟩
  | .local _ .vmem, ⟨8, _⟩ => ⟨S128x64, .bf16⟩
  | .local _ .vmem, ⟨9, _⟩ => ⟨S128x64, .bf16⟩
  | .local _ .vmem, ⟨10, _⟩ => ⟨S64x8192, .bf16⟩
  | .local _ .vmem, ⟨11, _⟩ => ⟨S128x1, .f32⟩
  | .local _ .vmem, ⟨12, _⟩ => ⟨S128x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64_S1x64 : S64.ShapeCasts S1x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  packedbf16_S1024x64_S1024x64_0_0 : (Rect.unit (s := S1024x64) ![0, 0] S1024x64.size inb_S1024x64_S1024x64_0_0).PackedRows (EltTy.packing .bf16)
  transposes_S8192x64_S64x8192_1_0 : S8192x64.Transposes [1, 0] S64x8192
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  dot_S128x64_S64x8192_S128x8192_1_0_0_1_n_n_wf : DotDims.WF S128x64 S64x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .bf16 = 32 ∨ (Rect.block (s := S8192x64) S1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S8192x64.size a
  hwx1_0 : ∀ i : grid1.Coords, EltTy.bits .bf16 = 32 ∨ (Rect.block (s := S8192x64) S128x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S64x8192.size a
  hwx1_1 : ∀ i : grid1.Coords, EltTy.bits .bf16 = 32 ∨ (Rect.block (s := S64x8192) S64x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1 : Shape := ⟨2, ![8192, 1]⟩
abbrev S1x64 : Shape := ⟨2, ![1, 64]⟩
abbrev S64 : Shape := ⟨1, ![64]⟩
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S1x64, .f32⟩
  | .hbm, ⟨2, _⟩ => ⟨S64, .f32⟩
  | .hbm, ⟨3, _⟩ => ⟨S8192x64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S64x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x1_S1x64_S8192x64_1_0_0_1_n_n_wf : DotDims.WF S8192x1 S1x64 S8192x64 [1] [0] [0] [1] [] []
  dot_S8192x64_S64x8192_S8192x8192_1_0_0_1_n_n_wf : DotDims.WF S8192x64 S64x8192 S8192x8192 [1] [0] [0] [1] [] []

variable [Facts₀]

def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  The one function both programs compute, at the extended reals.

  A column x of 8192 entries and two rows w, b of 64 give the rank-one affine matrix  e r k = x r * w k + b k.
  Each row of e is divided by  sqrt (max (sum of its squares) eps);  call the result n.  The pairwise cosines are
  c r j = sum over k of n r k * n j k,  the row loss is the maximum over j of  1 - |c r j|  (the maximum taken from
  minus infinity), and the scalar result is  1 * -((0 + sum over r of the row losses) / 8192).
  Nothing here is evaluated: the four constants stay the bit patterns both programs print.
-/
import Idealize.ShloMosaic.Lib.ValueIdx
import Idealize.ShloMosaic.PureOps.Ideal.Laws

noncomputable section

namespace Cert.Spec

open Idealize.ShloMosaic Idealize.ShloMosaic.ValueIdx

/-! ## Arrays read as functions of their coordinates, and back -/

/-- The one column of an `[p, 1]` array. -/
def col0 {p : ℕ} (x : (⟨2, ![p, 1]⟩ : Shape).Idx → EReal) : Fin p → EReal := fun r => x (ix2 r (0 : Fin 1))
/-- The one row of a `[1, q]` array. -/
def row0 {q : ℕ} (w : (⟨2, ![1, q]⟩ : Shape).Idx → EReal) : Fin q → EReal := fun k => w (ix2 (0 : Fin 1) k)
/-- A vector by its coordinate. -/
def vec {q : ℕ} (b : (⟨1, ![q]⟩ : Shape).Idx → EReal) : Fin q → EReal := fun k => b (ix1 k)
/-- A matrix by its two coordinates. -/
def mat {p q : ℕ} (a : (⟨2, ![p, q]⟩ : Shape).Idx → EReal) : Fin p → Fin q → EReal := fun r k => a (ix2 r k)
/-- The `[p, q]` array of a function of two coordinates. -/
def arr2 {p q : ℕ} (f : Fin p → Fin q → EReal) : (⟨2, ![p, q]⟩ : Shape).Idx → EReal :=
  fun i => f ⟨(i 0).val, idx2_lt0 i⟩ ⟨(i 1).val, idx2_lt1 i⟩
/-- The `[p, 1]` array whose one column is a function of the row. -/
def colArr {p : ℕ} (l : Fin p → EReal) : (⟨2, ![p, 1]⟩ : Shape).Idx → EReal := fun i => l ⟨(i 0).val, idx2_lt0 i⟩

theorem arr2_ix2 {p q : ℕ} (f : Fin p → Fin q → EReal) (r : Fin p) (k : Fin q) : arr2 f (ix2 r k) = f r k := rfl
theorem colArr_ix2 {p : ℕ} (l : Fin p → EReal) (r : Fin p) (u : Fin 1) : colArr l (ix2 r u) = l r := rfl
theorem mat_arr2 {p q : ℕ} (f : Fin p → Fin q → EReal) : mat (arr2 f) = f := rfl
theorem col0_colArr {p : ℕ} (l : Fin p → EReal) : col0 (colArr l) = l := rfl

/-! ## The mathematics -/

/-- The rank-one affine matrix `x r * w k + b k`. -/
def proj (xc : Fin 8192 → EReal) (wr br : Fin 64 → EReal) (r : Fin 8192) (k : Fin 64) : EReal := xc r * wr k + br k

/-- A row's norm, floored: `sqrt (max (Σ k, e r k ^ 2) eps)`. -/
def rowNorm (e : Fin 8192 → Fin 64 → EReal) (r : Fin 8192) : EReal :=
  Ideal.sqrt (max (∑ k : Fin 64, e r k * e r k) (Ideal.ofBits .f32 0x2B8CBCCC#32))

/-- The rows divided by their norms. -/
def normed (e : Fin 8192 → Fin 64 → EReal) (r : Fin 8192) (k : Fin 64) : EReal := Ideal.div (e r k) (rowNorm e r)

/-- Row `r`'s loss against every column `j` of a second matrix: `max over j of 1 - |Σ k, n r k * nT k j|`, from minus infinity. -/
def rowLoss (n : Fin 8192 → Fin 64 → EReal) (nT : Fin 64 → Fin 8192 → EReal) (r : Fin 8192) : EReal :=
  (Finset.univ : Finset (Fin 8192)).fold max (Ideal.ofBits .f32 0xFF800000#32)
    (fun j => Ideal.ofBits .f32 0x3F800000#32 - max (∑ k : Fin 64, n r k * nT k j) (-(∑ k : Fin 64, n r k * nT k j)))

/-- The scalar: `1 * -((0 + Σ r, l r) / 8192)`. -/
def aux (l : Fin 8192 → EReal) : EReal :=
  Ideal.ofBits .f32 0x3F800000#32
    * -(Ideal.div (Ideal.ofBits .f32 0x00000000#32 + ∑ r : Fin 8192, l r) (Ideal.ofBits .f32 0x46000000#32))

/-- The whole second result from the three inputs. -/
def auxOf (xc : Fin 8192 → EReal) (wr br : Fin 64 → EReal) : EReal :=
  aux (rowLoss (normed (proj xc wr br)) (fun k j => normed (proj xc wr br) j k))

end Cert.Spec

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0.lean ====
import proofs.«113240_j7215545057629_1_alg».proof.Proof.Gen.KernelIdeal.Frame
import proofs.«113240_j7215545057629_1_alg».proof.Proof.Spec
import proofs.«113240_j7215545057629_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec Cert.Lib.Keepdims
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The two stores of the body at an index of the block -/

/-- The first store: the column entry of the row times the row vector's entry, plus the bias row's entry. -/
theorem pay1_apply (x0 : FVec Ideal S1024x1 .f32) (x1 x2 : FVec Ideal S1x64 .f32) (p : Fin 1024) (q : Fin 64) :
    k0_pay1 x0 x1 x2 (ix2 p q) = x0 (ix2 p (0 : Fin 1)) * x1 (ix2 (0 : Fin 1) q) + x2 (ix2 (0 : Fin 1) q) := by
  unfold k0_pay1
  rw [addf_apply, mulf_apply, broadcastTo_a1_ab_apply, broadcastTo_1b_ab_apply, broadcastTo_1b_ab_apply]
  simp only [shapeCast_self]

/-- A lane sum of a 1024 x 64 block at row `p` is the sum over the row's 64 entries. -/
theorem rowSum_apply (v : FVec Ideal S1024x64 .f32) (hφ : FKind.Formats .f32)
    (hacc : (0x00000000#32 : BitVec 32) = FKind.add.neutral .f32 hφ) (p : Fin 1024) :
    multiReduction .add [1] S1024 v 0x00000000#32 reduces_S1024x64_S1024 hφ hacc (ix1 p) = ∑ k : Fin 64, v (ix2 p k) := by
  refine (Ideal.multiReduction_add_single v _ reduces_S1024x64_S1024 hφ hacc (ix1 p)).trans ?_
  refine Finset.sum_congr rfl fun k _ => congrArg v ?_
  exact funext fun a => Fin.ext (by match a with | ⟨0, _⟩ => rfl | ⟨1, _⟩ => rfl)

/-- The second store: the first store's entry divided by the square root of the floored sum of the row's squares
    (the change of format is the identity on the extended reals). -/
theorem pay2_apply (x0 : FVec Ideal S1024x1 .f32) (x1 x2 : FVec Ideal S1x64 .f32) (p : Fin 1024) (q : Fin 64) :
    k0_pay2 (F := Ideal) x0 x1 x2 (ix2 p q)
      = Ideal.div (k0_pay1 (F := Ideal) x0 x1 x2 (ix2 p q))
          (Ideal.sqrt (max (∑ k : Fin 64, k0_pay1 (F := Ideal) x0 x1 x2 (ix2 p k) * k0_pay1 (F := Ideal) x0 x1 x2 (ix2 p k))
            (Ideal.ofBits .f32 0x2B8CBCCC#32))) := by
  unfold k0_pay2
  rw [truncf_apply, divf_apply, broadcastTo_a1_ab_apply]
  refine congrArg (fun z => Ideal.div (k0_pay1 (F := Ideal) x0 x1 x2 (ix2 p q))
    (Ideal.sqrt (max z (Ideal.ofBits .f32 0x2B8CBCCC#32)))) ?_
  rw [shapeCast_a_a1_apply]
  exact rowSum_apply _ _ _ p

/-! ## The windows' blocks -/

variable (V : (c : Dev nD) → (b : Ref sig .tc) → Buf (Elt Ideal) ((c : Thread nD τ).loc b))

/-- The printed index maps, decided over the eight grid points: the column and both outputs move down by one block of
    1024 rows per point; the two rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The column's block at point `t` is rows `1024 t … 1024 t + 1023` of the column. -/
theorem xblk_apply (c : Dev nD) (t : Fin cfg0.N) (p : Fin 1024) (u : Fin 1) (r : Fin 8192) (hr : r.val = 1024 * t.val + p.val) :
    (iblk0 V c 0 t : FVec Ideal S1024x1 .f32) (ix2 p u) = (V c main_arg0 : S8192x1.Idx → Elt Ideal .f32) (ix2 r (0 : Fin 1)) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 1024 + 1 * p.val = r.val; rw [e0, hr]; omega
  | ⟨1, _⟩ => show win0_0.index t (1 : Fin 2) * 1 + 1 * u.val = 0; rw [e1]; omega

/-- The row vector's block at every point is the whole row. -/
theorem wblk_apply (c : Dev nD) (t : Fin cfg0.N) (u : Fin 1) (q : Fin 64) :
    (iblk0 V c 1 t : FVec Ideal S1x64 .f32) (ix2 u q) = (V c main_arg1 : S1x64.Idx → Elt Ideal .f32) (ix2 (0 : Fin 1) q) := by
  obtain ⟨-, -, e2, e3, -⟩ := idx_facts t
  unfold iblk0
  rw [View.read_apply]
  show V c main_arg1 _ = V c main_arg1 _
  refine congrArg (V c main_arg1) ?_
  funext a; apply Fin.ext
  match a with
  | ⟨0, _⟩ => show win0_1.index t (0 : Fin 2) * 1 + 1 * u.val = 0; rw [e2]; omega
  | ⟨1, _⟩ => show win0_1.index t (1 : Fin 2) * 64 + 1 * q.val = q.val; rw [e3]; omega

/-- The bias row's block at every point is the whole row. -/
theorem bblk_apply (c : Dev nD) (t : Fin cfg0.N) (u : Fin 1) (q : Fin 64) :
    (iblk0 V c 2 t : FVec Ideal S1x64 .f32) (ix2 u q) = (V c main_v0 : S1x64.Idx → Elt Ideal .f32) (ix2 (0 : Fin 1) q) := by
  obtain ⟨-, -, -, -, e4, e5, -⟩ := idx_facts t
  unfold iblk0
  rw [View.read_apply]
  show V c main_v0 _ = V c main_v0 _
  refine congrArg (V c main_v0) ?_
  funext a; apply Fin.ext
  match a with
  | ⟨0, _⟩ => show win0_2.index t (0 : Fin 2) * 1 + 1 * u.val = 0; rw [e4]; omega
  | ⟨1, _⟩ => show win0_2.index t (1 : Fin 2) * 64 + 1 * q.val = q.val; rw [e5]; omega

/-- The first store at point `t`, entry `(p, q)`, is the projection's entry `(1024 t + p, q)`. -/
theorem pay1_blk (c : Dev nD) (t : Fin cfg0.N) (p : Fin 1024) (q : Fin 64) (r : Fin 8192) (hr : r.val = 1024 * t.val + p.val) :
    k0_pay1 (F := Ideal) (iblk0 V c 0 t) (iblk0 V c 1 t) (iblk0 V c 2 t) (ix2 p q)
      = proj (col0 (V c main_arg0)) (row0 (V c main_arg1)) (row0 (V c main_v0)) r q := by
  refine (pay1_apply (iblk0 V c 0 t) (iblk0 V c 1 t) (iblk0 V c 2 t) p q).trans ?_
  rw [xblk_apply V c t p 0 r hr, wblk_apply V c t 0 q, bblk_apply V c t 0 q]
  rfl

/-! ## What a point writes back, the cover, and the two arrays after the region -/

/-- An output block's index `(p, q)` sits at row `1024 t + p`, column `q` of its array (both outputs have the same index map). -/
theorem emb3 (t : Fin cfg0.N) (p : Fin 1024) (q : Fin 64) (r : Fin 8192) (hr : r.val = 1024 * t.val + p.val) :
    ((cfg0.win 3).blk t).view.emb (ix2 p q) = (ix2 r q : S8192x64.Idx) := by
  obtain ⟨-, -, -, -, -, -, e6, e7, -⟩ := idx_facts t
  funext a; apply Fin.ext
  match a with
  | ⟨0, _⟩ => show win0_3.index t (0 : Fin 2) * 1024 + 1 * p.val = r.val; rw [e6, hr]; omega
  | ⟨1, _⟩ => show win0_3.index t (1 : Fin 2) * 64 + 1 * q.val = q.val; rw [e7]; omega

theorem emb4 (t : Fin cfg0.N) (p : Fin 1024) (q : Fin 64) (r : Fin 8192) (hr : r.val = 1024 * t.val + p.val) :
    ((cfg0.win 4).blk t).view.emb (ix2 p q) = (ix2 r q : S8192x64.Idx) := by
  obtain ⟨-, -, -, -, -, -, -, -, e8, e9⟩ := idx_facts t
  funext a; apply Fin.ext
  match a with
  | ⟨0, _⟩ => show win0_4.index t (0 : Fin 2) * 1024 + 1 * p.val = r.val; rw [e8, hr]; omega
  | ⟨1, _⟩ => show win0_4.index t (1 : Fin 2) * 64 + 1 * q.val = q.val; rw [e9]; omega

/-- The row of the array that entry `p` of point `t`'s block lands on. -/
def rowOf (t : Fin cfg0.N) (p : Fin 1024) : Fin 8192 :=
  ⟨1024 * t.val + p.val, by have h := t.isLt; have e : cfg0.N = 8 := N_0; have := p.isLt; omega⟩

/-- WHAT POINT `t` WRITES BACK to the first output is block `t` of the projection. -/
theorem flushed3_eq (c : Dev nD) (t : Fin cfg0.N) :
    (dat0 V c).flushed 3 t = ((cfg0.win 3).blk t).view.read (Elt Ideal)
      (arr2 (proj (col0 (V c main_arg0)) (row0 (V c main_arg1)) (row0 (V c main_v0)))) := by
  show (cfg0.win 3).cut (grid0.coords t) ((dat0 V c).after 3 t) = _
  rw [after0_3]
  unfold out0_3
  rw [View.canon_unit_zero hz]
  simp only [View.ld_unit_zero (S := S1024x1) hz, View.ld_unit_zero (S := S1x64) hz]
  funext j
  obtain ⟨p, q, rfl⟩ : ∃ (p : Fin 1024) (q : Fin 64), j = ix2 p q := ⟨j 0, j 1, eq_ix2 j⟩
  show k0_pay1 (F := Ideal) (iblk0 V c 0 t) (iblk0 V c 1 t) (iblk0 V c 2 t) (ix2 p q)
    = arr2 (proj (col0 (V c main_arg0)) (row0 (V c main_arg1)) (row0 (V c main_v0))) (((cfg0.win 3).blk t).view.emb (ix2 p q))
  rw [emb3 t p q (rowOf t p) rfl, arr2_ix2]
  exact pay1_blk V c t p q (rowOf t p) rfl

/-- WHAT POINT `t` WRITES BACK to the second output is block `t` of the projection with its rows normalised. -/
theorem flushed4_eq (c : Dev nD) (t : Fin cfg0.N) :
    (dat0 V c).flushed 4 t = ((cfg0.win 4).blk t).view.read (Elt Ideal)
      (arr2 (normed (proj (col0 (V c main_arg0)) (row0 (V c main_arg1)) (row0 (V c main_v0))))) := by
  show (cfg0.win 4).cut (grid0.coords t) ((dat0 V c).after 4 t) = _
  rw [after0_4]
  unfold out0_4
  rw [View.canon_unit_zero hz]
  simp only [View.ld_unit_zero (S := S1024x1) hz, View.ld_unit_zero (S := S1x64) hz]
  funext j
  obtain ⟨p, q, rfl⟩ : ∃ (p : Fin 1024) (q : Fin 64), j = ix2 p q := ⟨j 0, j 1, eq_ix2 j⟩
  show k0_pay2 (F := Ideal) (iblk0 V c 0 t) (iblk0 V c 1 t) (iblk0 V c 2 t) (ix2 p q)
    = arr2 (normed (proj (col0 (V c main_arg0)) (row0 (V c main_arg1)) (row0 (V c main_v0)))) (((cfg0.win 4).blk t).view.emb (ix2 p q))
  rw [emb4 t p q (rowOf t p) rfl, arr2_ix2]
  refine (pay2_apply (iblk0 V c 0 t) (iblk0 V c 1 t) (iblk0 V c 2 t) p q).trans ?_
  rw [pay1_blk V c t p q (rowOf t p) rfl]
  unfold normed rowNorm
  refine congrArg (fun z => Ideal.div _ (Ideal.sqrt (max z _))) ?_
  exact Finset.sum_congr rfl fun k _ => by rw [pay1_blk V c t p k (rowOf t p) rfl]

/-- An index of an output array is in point `t`'s block iff each coordinate is in the block's range on its axis. -/
theorem mem_blk3 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1_0).slice (win0_3.rect t)).set ↔ _
  rw [View.set_slice_whole, Rect.mem_set_unit]
  exact Iff.rfl

theorem mem_blk4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_1).slice (win0_4.rect t)).set ↔ _
  rw [View.set_slice_whole, Rect.mem_set_unit]
  exact Iff.rfl

/-- The point whose block holds row `r`: `r / 1024`. -/
def pointOf (i : S8192x64.Idx) : Fin cfg0.N :=
  ⟨(i 0).val / 1024, by have e : cfg0.N = 8 := N_0; have := idx2_lt0 i; omega⟩

/-- The eight blocks of 1024 rows tile the 8192 rows. -/
theorem cover3 (i : S8192x64.Idx) : ∃ t : Fin cfg0.N, (cfg0.win 3).flush t = true ∧ i ∈ ((cfg0.win 3).blk t).view.set := by
  have h0 : (i 0).val < 8192 := idx2_lt0 i
  have h1 : (i 1).val < 64 := idx2_lt1 i
  have tv : (pointOf i).val = (i 0).val / 1024 := rfl
  obtain ⟨-, -, -, -, -, -, e6, e7, -⟩ := idx_facts (pointOf i)
  refine ⟨pointOf i, flush0_3 _, ?_⟩
  rw [mem_blk3]
  intro a
  match a with
  | ⟨0, _⟩ =>
    show win0_3.index (pointOf i) (0 : Fin 2) * 1024 ≤ (i 0).val ∧ (i 0).val < win0_3.index (pointOf i) (0 : Fin 2) * 1024 + 1024
    rw [e6, tv]; omega
  | ⟨1, _⟩ =>
    show win0_3.index (pointOf i) (1 : Fin 2) * 64 ≤ (i 1).val ∧ (i 1).val < win0_3.index (pointOf i) (1 : Fin 2) * 64 + 64
    rw [e7]; omega

theorem cover4 (i : S8192x64.Idx) : ∃ t : Fin cfg0.N, (cfg0.win 4).flush t = true ∧ i ∈ ((cfg0.win 4).blk t).view.set := by
  have h0 : (i 0).val < 8192 := idx2_lt0 i
  have h1 : (i 1).val < 64 := idx2_lt1 i
  have tv : (pointOf i).val = (i 0).val / 1024 := rfl
  obtain ⟨-, -, -, -, -, -, -, -, e8, e9⟩ := idx_facts (pointOf i)
  refine ⟨pointOf i, flush0_4 _, ?_⟩
  rw [mem_blk4]
  intro a
  match a with
  | ⟨0, _⟩ =>
    show win0_4.index (pointOf i) (0 : Fin 2) * 1024 ≤ (i 0).val ∧ (i 0).val < win0_4.index (pointOf i) (0 : Fin 2) * 1024 + 1024
    rw [e8, tv]; omega
  | ⟨1, _⟩ =>
    show win0_4.index (pointOf i) (1 : Fin 2) * 64 ≤ (i 1).val ∧ (i 1).val < win0_4.index (pointOf i) (1 : Fin 2) * 64 + 64
    rw [e9]; omega

/-- THE FIRST OUTPUT after the region: the projection of the column and the two rows the region found. -/
theorem final_emb (c : Dev nD) :
    (dat0 (F := Ideal) V c).arrAt 3 cfg0.N
      = arr2 (proj (col0 (V c main_arg0)) (row0 (V c main_arg1)) (row0 (V c main_v0))) :=
  (dat0 V c).arrAt_eq_of_cover 3 _ (fun t _ => flushed3_eq V c t) cover3

/-- THE SECOND OUTPUT after the region: that projection with every row divided by its floored norm. -/
theorem final_unit (c : Dev nD) :
    (dat0 (F := Ideal) V c).arrAt 4 cfg0.N
      = arr2 (normed (proj (col0 (V c main_arg0)) (row0 (V c main_arg1)) (row0 (V c main_v0)))) :=
  (dat0 V c).arrAt_eq_of_cover 4 _ (fun t _ => flushed4_eq V c t) cover4

end Cert.KernelIdeal.Region0

end
-- ==== Proof.Region1.lean ====
import proofs.«113240_j7215545057629_1_alg».proof.Proof.Gen.KernelIdeal.Frame
import proofs.«113240_j7215545057629_1_alg».proof.Proof.Spec
import proofs.«113240_j7215545057629_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec Cert.Lib.Keepdims
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The block product at an index -/

theorem lhs_mm_0 (i : S128x8192.Idx) (q : dot_S128x64_S64x8192_S128x8192_1_0_0_1_n_n.contr.Idx) :
    (dot_S128x64_S64x8192_S128x8192_1_0_0_1_n_n.lhsIdx i q 0).val = (i 0).val := by
  unfold DotDims.lhsIdx
  rw [dif_neg (show ¬(0 : Fin S128x64.rank) ∈ dot_S128x64_S64x8192_S128x8192_1_0_0_1_n_n.lhsBatch by decide), dif_pos (show (0 : Fin S128x64.rank) ∈ dot_S128x64_S64x8192_S128x8192_1_0_0_1_n_n.lhsNonContracting by decide)]
  rfl
theorem lhs_mm_1 (i : S128x8192.Idx) (q : dot_S128x64_S64x8192_S128x8192_1_0_0_1_n_n.contr.Idx) :
    (dot_S128x64_S64x8192_S128x8192_1_0_0_1_n_n.lhsIdx i q 1).val = (q ⟨0, by decide⟩).val :=
  dot_S128x64_S64x8192_S128x8192_1_0_0_1_n_n.lhsIdx_val_of_single rfl i q
theorem rhs_mm_0 (i : S128x8192.Idx) (q : dot_S128x64_S64x8192_S128x8192_1_0_0_1_n_n.contr.Idx) :
    (dot_S128x64_S64x8192_S128x8192_1_0_0_1_n_n.rhsIdx i q 0).val = (q ⟨0, by decide⟩).val :=
  dot_S128x64_S64x8192_S128x8192_1_0_0_1_n_n.rhsIdx_val_of_single rfl i q
theorem rhs_mm_1 (i : S128x8192.Idx) (q : dot_S128x64_S64x8192_S128x8192_1_0_0_1_n_n.contr.Idx) :
    (dot_S128x64_S64x8192_S128x8192_1_0_0_1_n_n.rhsIdx i q 1).val = (i 1).val := by
  unfold DotDims.rhsIdx
  rw [dif_neg (show ¬(1 : Fin S64x8192.rank) ∈ dot_S128x64_S64x8192_S128x8192_1_0_0_1_n_n.rhsBatch by decide), dif_pos (show (1 : Fin S64x8192.rank) ∈ dot_S128x64_S64x8192_S128x8192_1_0_0_1_n_n.rhsNonContracting by decide)]
  rfl

/-- The block product into the zero accumulator, at `(p, j)`: the sum over the 64 contracted coordinates of the left
    block's row `p` times the right block's column `j`. -/
theorem mm_apply (l : FVec Ideal S128x64 .bf16) (r : FVec Ideal S64x8192 .bf16) (p : Fin 128) (j : Fin 8192) :
    matmul dot_S128x64_S64x8192_S128x8192_1_0_0_1_n_n none l r (constant (F := Ideal) S128x8192 .f32 0x00000000#32) (ix2 p j)
      = ∑ k : Fin 64, l (ix2 p k) * r (ix2 k j) := by
  simp only [matmul]
  rw [Ideal.matmul_constant_zero_apply, ← Equiv.sum_comp (ValueIdx.contrEquiv1 dot_S128x64_S64x8192_S128x8192_1_0_0_1_n_n 64 rfl rfl).symm]
  refine Finset.sum_congr rfl fun k _ => ?_
  have hk := ValueIdx.contrEquiv1_symm_val dot_S128x64_S64x8192_S128x8192_1_0_0_1_n_n 64 rfl rfl k
  have el : dot_S128x64_S64x8192_S128x8192_1_0_0_1_n_n.lhsIdx (ix2 p j) ((ValueIdx.contrEquiv1 dot_S128x64_S64x8192_S128x8192_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S128x64_S64x8192_S128x8192_1_0_0_1_n_n.rhsIdx (ix2 p j) ((ValueIdx.contrEquiv1 dot_S128x64_S64x8192_S128x8192_1_0_0_1_n_n 64 rfl rfl).symm k) = ix2 k j := funext fun a => Fin.ext (by
    match a with
    | ⟨0, _⟩ => exact (rhs_mm_0 _ _).trans hk
    | ⟨1, _⟩ => exact rhs_mm_1 _ _)
  rw [el, er]

/-- A lane maximum of a 128 x 8192 block at row `p` is the fold of `max`, from the accumulator's value, over the row's entries. -/
theorem rowMax_apply (v : FVec Ideal S128x8192 .f32) (hφ : FKind.Formats .f32)
    (hacc : (0xFF800000#32 : BitVec 32) = FKind.maximumf.neutral .f32 hφ) (p : Fin 128) :
    multiReduction .maximumf [1] S128 v 0xFF800000#32 reduces_S128x8192_S128 hφ hacc (ix1 p)
      = (Finset.univ : Finset (Fin 8192)).fold max (Ideal.ofBits .f32 0xFF800000#32) (fun j => v (ix2 p j)) := by
  refine (Ideal.multiReduction_maximumf_single v _ reduces_S128x8192_S128 hφ hacc (ix1 p)).trans ?_
  refine Finset.fold_congr fun j _ => ?_
  exact congrArg v (funext fun a => Fin.ext (by match a with | ⟨0, _⟩ => rfl | ⟨1, _⟩ => rfl))

/-- The body's one store at `(p, u)`: the maximum over the 8192 columns `j` of `1 - |row p of the left block · column j of the right block|`. -/
theorem pay_apply (x0 : FVec Ideal S128x64 .bf16) (x1 : FVec Ideal S64x8192 .bf16) (p : Fin 128) (u : Fin 1) :
    k1_pay1 (F := Ideal) x0 x1 (ix2 p u)
      = (Finset.univ : Finset (Fin 8192)).fold max (Ideal.ofBits .f32 0xFF800000#32)
          (fun j => Ideal.ofBits .f32 0x3F800000#32
            - max (∑ k : Fin 64, x0 (ix2 p k) * x1 (ix2 k j)) (-(∑ k : Fin 64, x0 (ix2 p k) * x1 (ix2 k j)))) := by
  unfold k1_pay1
  rw [shapeCast_a_a1_apply]
  refine (rowMax_apply _ _ _ p).trans ?_
  refine Finset.fold_congr fun j _ => ?_
  simp only [shapeCast_self]
  show Ideal.ofBits .f32 0x3F800000#32
      - FloatOps.absf (matmul dot_S128x64_S64x8192_S128x8192_1_0_0_1_n_n none x0 x1 (constant (F := Ideal) S128x8192 .f32 0x00000000#32) (ix2 p j)) = _
  rw [mm_apply, Ideal.absf_def]

/-! ## The windows' blocks -/

variable (V : (c : Dev nD) → (b : Ref sig .tc) → Buf (Elt Ideal) ((c : Thread nD τ).loc b))

/-- The printed index maps, decided over the 64 grid points: the left operand and the output move down by one block of
    128 rows per point; the right operand stays whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `128 t … 128 t + 127` of its array. -/
theorem lblk_apply (c : Dev nD) (t : Fin cfg1.N) (p : Fin 128) (k : Fin 64) (r : Fin 8192) (hr : r.val = 128 * t.val + p.val) :
    (iblk1 V c 0 t : FVec Ideal S128x64 .bf16) (ix2 p k) = (V c main_v1_1 : S8192x64.Idx → Elt Ideal .bf16) (ix2 r k) := by
  obtain ⟨e0, e1, -⟩ := idx_facts t
  unfold iblk1
  rw [View.read_apply]
  show V c main_v1_1 _ = V c main_v1_1 _
  refine congrArg (V c main_v1_1) ?_
  funext a; apply Fin.ext
  match a with
  | ⟨0, _⟩ => show win1_0.index t (0 : Fin 2) * 128 + 1 * p.val = r.val; rw [e0, hr]; omega
  | ⟨1, _⟩ => show win1_0.index t (1 : Fin 2) * 64 + 1 * k.val = k.val; rw [e1]; omega

/-- The right operand's block at every point is its whole array. -/
theorem rblk_apply (c : Dev nD) (t : Fin cfg1.N) (k : Fin 64) (j : Fin 8192) :
    (iblk1 V c 1 t : FVec Ideal S64x8192 .bf16) (ix2 k j) = (V c main_v2 : S64x8192.Idx → Elt Ideal .bf16) (ix2 k j) := by
  obtain ⟨-, -, e2, e3, -⟩ := idx_facts t
  unfold iblk1
  rw [View.read_apply]
  show V c main_v2 _ = V c main_v2 _
  refine congrArg (V c main_v2) ?_
  funext a; apply Fin.ext
  match a with
  | ⟨0, _⟩ => show win1_1.index t (0 : Fin 2) * 64 + 1 * k.val = k.val; rw [e2]; omega
  | ⟨1, _⟩ => show win1_1.index t (1 : Fin 2) * 8192 + 1 * j.val = j.val; rw [e3]; omega

/-! ## What a point writes back, the cover, and the array after the region -/

/-- The output block's index `(p, u)` sits at row `128 t + p` of the one-column array. -/
theorem emb2 (t : Fin cfg1.N) (p : Fin 128) (u : Fin 1) (r : Fin 8192) (hr : r.val = 128 * t.val + p.val) :
    ((cfg1.win 2).blk t).view.emb (ix2 p u) = (ix2 r u : S8192x1.Idx) := by
  obtain ⟨-, -, -, -, e4, e5⟩ := idx_facts t
  funext a; apply Fin.ext
  match a with
  | ⟨0, _⟩ => show win1_2.index t (0 : Fin 2) * 128 + 1 * p.val = r.val; rw [e4, hr]; omega
  | ⟨1, _⟩ => show win1_2.index t (1 : Fin 2) * 1 + 1 * u.val = u.val; rw [e5]; omega

/-- The row of the array that entry `p` of point `t`'s block lands on. -/
def rowOf (t : Fin cfg1.N) (p : Fin 128) : Fin 8192 :=
  ⟨128 * t.val + p.val, by have h := t.isLt; have e : cfg1.N = 64 := N_1; have := p.isLt; omega⟩

/-- WHAT POINT `t` WRITES BACK is block `t` of the row losses of the two arrays the region found. -/
theorem flushed2_eq (c : Dev nD) (t : Fin cfg1.N) :
    (dat1 V c).flushed 2 t = ((cfg1.win 2).blk t).view.read (Elt Ideal)
      (colArr (rowLoss (mat (V c main_v1_1)) (mat (V c main_v2)))) := by
  show (cfg1.win 2).cut (grid1.coords t) ((dat1 V c).after 2 t) = _
  rw [after1_2]
  unfold out1_2
  rw [View.canon_unit_zero hz]
  simp only [View.ld_unit_zero (S := S128x64) hz, View.ld_unit_zero (S := S64x8192) hz]
  funext j
  obtain ⟨p, u, rfl⟩ : ∃ (p : Fin 128) (u : Fin 1), j = ix2 p u := ⟨j 0, j 1, eq_ix2 j⟩
  show k1_pay1 (F := Ideal) (iblk1 V c 0 t) (iblk1 V c 1 t) (ix2 p u)
    = colArr (rowLoss (mat (V c main_v1_1)) (mat (V c main_v2))) (((cfg1.win 2).blk t).view.emb (ix2 p u))
  rw [emb2 t p u (rowOf t p) rfl, colArr_ix2]
  refine (pay_apply (iblk1 V c 0 t) (iblk1 V c 1 t) p u).trans ?_
  unfold rowLoss
  refine Finset.fold_congr fun j _ => ?_
  refine congrArg (fun z => Ideal.ofBits .f32 0x3F800000#32 - max z (-z)) ?_
  refine Finset.sum_congr rfl fun k _ => ?_
  rw [lblk_apply V c t p k (rowOf t p) rfl, rblk_apply V c t k j]
  rfl

/-- An index of the output array is in point `t`'s block iff each coordinate is in the block's range on its axis. -/
theorem mem_blk2 (t : Fin cfg1.N) (i : S8192x1.Idx) :
    i ∈ ((cfg1.win 2).blk t).view.set ↔ ∀ a : Fin 2, win1_2.index t a * S128x1.size a ≤ (i a).val ∧ (i a).val < win1_2.index t a * S128x1.size a + S128x1.size a := by
  show i ∈ ((View.whole main_v3).slice (win1_2.rect t)).set ↔ _
  rw [View.set_slice_whole, Rect.mem_set_unit]
  exact Iff.rfl

/-- The point whose block holds row `r`: `r / 128`. -/
def pointOf (i : S8192x1.Idx) : Fin cfg1.N :=
  ⟨(i 0).val / 128, by have e : cfg1.N = 64 := N_1; have := idx2_lt0 i; omega⟩

/-- The 64 blocks of 128 rows tile the 8192 rows. -/
theorem cover2 (i : S8192x1.Idx) : ∃ t : Fin cfg1.N, (cfg1.win 2).flush t = true ∧ i ∈ ((cfg1.win 2).blk t).view.set := by
  have h0 : (i 0).val < 8192 := idx2_lt0 i
  have h1 : (i 1).val < 1 := idx2_lt1 i
  have tv : (pointOf i).val = (i 0).val / 128 := rfl
  obtain ⟨-, -, -, -, e4, e5⟩ := idx_facts (pointOf i)
  refine ⟨pointOf i, flush1_2 _, ?_⟩
  rw [mem_blk2]
  intro a
  match a with
  | ⟨0, _⟩ =>
    show win1_2.index (pointOf i) (0 : Fin 2) * 128 ≤ (i 0).val ∧ (i 0).val < win1_2.index (pointOf i) (0 : Fin 2) * 128 + 128
    rw [e4, tv]; omega
  | ⟨1, _⟩ =>
    show win1_2.index (pointOf i) (1 : Fin 2) * 1 ≤ (i 1).val ∧ (i 1).val < win1_2.index (pointOf i) (1 : Fin 2) * 1 + 1
    rw [e5]; omega

/-- THE OUTPUT after the region: every row's loss, of the two arrays the region found. -/
theorem final_loss (c : Dev nD) :
    (dat1 (F := Ideal) V c).arrAt 2 cfg1.N
      = colArr (rowLoss (mat (V c main_v1_1)) (mat (V c main_v2))) :=
  (dat1 V c).arrAt_eq_of_cover 2 _ (fun t _ => flushed2_eq V c t) cover2

end Cert.KernelIdeal.Region1

end
-- ==== Proof.KernelValue.lean ====
import proofs.«113240_j7215545057629_1_alg».proof.Proof.Gen.KernelIdeal.Frame
import proofs.«113240_j7215545057629_1_alg».proof.Proof.Region0
import proofs.«113240_j7215545057629_1_alg».proof.Proof.Region1
import proofs.«113240_j7215545057629_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.KValue

open Cert.KernelIdeal Cert.KernelIdeal.Gen Cert.Spec
open Idealize.ShloMosaic Idealize.ShloMosaic.TcCoe Idealize.ShloMosaic.ValueIdx Idealize.SL.Sem Idealize.ShloMosaic.StableHlo

/-! ## The three host stretches, each over any contents `X` at its start -/

/-- Before the first region: the bias vector recast as one row; nothing else written. -/
theorem pre_v0 (X : Valuation τ sig (Elt Ideal)) :
    StableHlo.after hostOps0 X (Proc.devRef .tc main_v0)
      = shapeCast S1x64 (X (Proc.devRef .tc main_arg2)) shapeCasts_S64_S1x64 := by
  after_results
  rfl
theorem pre_arg0 (X : Valuation τ sig (Elt Ideal)) :
    StableHlo.after hostOps0 X (Proc.devRef .tc main_arg0) = X (Proc.devRef .tc main_arg0) := by
  after_results
theorem pre_arg1 (X : Valuation τ sig (Elt Ideal)) :
    StableHlo.after hostOps0 X (Proc.devRef .tc main_arg1) = X (Proc.devRef .tc main_arg1) := by
  after_results

/-- Between the regions: the second output transposed; nothing else written. -/
theorem mid_v2 (X : Valuation τ sig (Elt Ideal)) :
    StableHlo.after hostOps1 X (Proc.devRef .tc main_v2)
      = transpose S64x8192 [1, 0] (X (Proc.devRef .tc main_v1_1)) transposes_S8192x64_S64x8192_1_0 := by
  after_results
theorem mid_v1_1 (X : Valuation τ sig (Elt Ideal)) :
    StableHlo.after hostOps1 X (Proc.devRef .tc main_v1_1) = X (Proc.devRef .tc main_v1_1) := by
  after_results
theorem mid_v1_0 (X : Valuation τ sig (Elt Ideal)) :
    StableHlo.after hostOps1 X (Proc.devRef .tc main_v1_0) = X (Proc.devRef .tc main_v1_0) := by
  after_results

/-- After the second region: the column of row losses summed, divided by 8192, negated, times one; the first output kept. -/
theorem post_v7 (X : Valuation τ sig (Elt Ideal)) :
    StableHlo.after hostOps2 X (Proc.devRef .tc main_v7)
      = mulf (constant (F := Ideal) S_ .f32 0x3F800000#32)
          (Host.negf (Host.divf (Host.reduceAdd (X (Proc.devRef .tc main_v3)) (constant (F := Ideal) S_ .f32 0x00000000#32) reducesTo_S8192x1_S_d0_1 h_S_)
            (constant (F := Ideal) S_ .f32 0x46000000#32))) := by
  after_results
theorem post_v1_0 (X : Valuation τ sig (Elt Ideal)) :
    StableHlo.after hostOps2 X (Proc.devRef .tc main_v1_0) = X (Proc.devRef .tc main_v1_0) := by
  after_results

/-! ## From the launch memory to the last boundary -/

variable (m : (ℓ : Loc nD τ sig) → Buf (Elt Ideal) ℓ) (ρ : Dev nD → PrngReg)

/-- The projection of the launched inputs: the column, the row, and the bias vector read as a row. -/
abbrev e (c : Dev nD) : Fin 8192 → Fin 64 → EReal :=
  proj (col0 (m ((c : Thread nD τ).loc main_arg0))) (row0 (m ((c : Thread nD τ).loc main_arg1))) (vec (m ((c : Thread nD τ).loc main_arg2)))

/-- The first region finds the column and the row as launched, … -/
theorem V1_arg0 (c : Dev nD) : V1 m ρ c main_arg0 = m ((c : Thread nD τ).loc main_arg0) := pre_arg0 (W0 m ρ c)
theorem V1_arg1 (c : Dev nD) : V1 m ρ c main_arg1 = m ((c : Thread nD τ).loc main_arg1) := pre_arg1 (W0 m ρ c)
/-- … and the bias as one row whose entries are the vector's. -/
theorem row0_V1_v0 (c : Dev nD) : row0 (V1 m ρ c main_v0) = vec (m ((c : Thread nD τ).loc main_arg2)) := by
  funext k
  show V1 m ρ c main_v0 (ix2 (0 : Fin 1) k) = _
  rw [show V1 m ρ c main_v0 = shapeCast S1x64 (m ((c : Thread nD τ).loc main_arg2)) shapeCasts_S64_S1x64 from pre_v0 (W0 m ρ c)]
  exact shapeCast_a_1a_apply _ _ 0 k

/-- After the first region: its first output is the projection, … -/
theorem W2_v1_0 (c : Dev nD) : W2 m ρ c (Proc.devRef .tc main_v1_0) = arr2 (e m c) := by
  refine (W2_arr m ρ c 3).trans ?_
  rw [Region0.final_emb (V1 m ρ) c, V1_arg0, V1_arg1, row0_V1_v0]
/-- … its second output the projection with normalised rows. -/
theorem W2_v1_1 (c : Dev nD) : W2 m ρ c (Proc.devRef .tc main_v1_1) = arr2 (normed (e m c)) := by
  refine (W2_arr m ρ c 4).trans ?_
  rw [Region0.final_unit (V1 m ρ) c, V1_arg0, V1_arg1, row0_V1_v0]

/-- The second region finds the normalised rows, and their transpose. -/
theorem V3_v1_1 (c : Dev nD) : V3 m ρ c main_v1_1 = arr2 (normed (e m c)) :=
  (mid_v1_1 (W2 m ρ c)).trans (W2_v1_1 m ρ c)
theorem mat_V3_v2 (c : Dev nD) : mat (V3 m ρ c main_v2) = fun k j => normed (e m c) j k := by
  funext k j
  show V3 m ρ c main_v2 (ix2 k j) = _
  rw [show V3 m ρ c main_v2 = transpose S64x8192 [1, 0] (W2 m ρ c (Proc.devRef .tc main_v1_1)) transposes_S8192x64_S64x8192_1_0
    from mid_v2 (W2 m ρ c), W2_v1_1]
  exact transpose_ix2_apply _ _ k j

/-- After the second region: the column of row losses of the normalised rows against themselves. -/
theorem W4_v3 (c : Dev nD) :
    W4 m ρ c (Proc.devRef .tc main_v3) = colArr (rowLoss (normed (e m c)) (fun k j => normed (e m c) j k)) := by
  refine (W4_arr m ρ c 2).trans ?_
  rw [Region1.final_loss (V3 m ρ) c, V3_v1_1, mat_V3_v2]
  rfl

/-- THE FIRST RESULT at the last boundary: the projection (no later stretch or region writes it). -/
theorem W5_v1_0 (c : Dev nD) : W5 m ρ c (Proc.devRef .tc main_v1_0) = arr2 (e m c) :=
  calc W5 m ρ c (Proc.devRef .tc main_v1_0)
    _ = W4 m ρ c (Proc.devRef .tc main_v1_0) := post_v1_0 (W4 m ρ c)
    _ = W3 m ρ c (Proc.devRef .tc main_v1_0) := W4_of_ne m ρ c main_v1_0 (by decide)
    _ = W2 m ρ c (Proc.devRef .tc main_v1_0) := mid_v1_0 (W2 m ρ c)
    _ = arr2 (e m c) := W2_v1_0 m ρ c

/-! ## The scalar tail -/

/-- A sum over every entry of a one-column array is the sum over its rows. -/
theorem sum_colArr (l : Fin 8192 → EReal) : (∑ i : S8192x1.Idx, colArr l i) = ∑ r : Fin 8192, l r := by
  rw [sum_idx2]
  exact Finset.sum_congr rfl fun r _ => (Fin.sum_univ_one _).trans rfl

/-- The last stretch applied to a column of row losses: the spec's scalar. -/
theorem tail_eq (l : Fin 8192 → EReal) (i : S_.Idx) :
    mulf (constant (F := Ideal) S_ .f32 0x3F800000#32)
      (Host.negf (Host.divf (Host.reduceAdd (colArr l : FVec Ideal S8192x1 .f32) (constant (F := Ideal) S_ .f32 0x00000000#32) reducesTo_S8192x1_S_d0_1 h_S_)
        (constant (F := Ideal) S_ .f32 0x46000000#32))) i = aux l := by
  show Ideal.ofBits .f32 0x3F800000#32
      * -(Ideal.div (Host.reduceAdd (colArr l : FVec Ideal S8192x1 .f32) (constant (F := Ideal) S_ .f32 0x00000000#32) reducesTo_S8192x1_S_d0_1 h_S_ i)
            (Ideal.ofBits .f32 0x46000000#32)) = _
  rw [hostReduceAdd_apply, Ideal.hostReduceAdd_total reducesTo_S8192x1_S_d0_1 (fun b => b.elim0), sum_colArr]
  rfl

/-- THE SECOND RESULT at the last boundary: the spec's scalar of the launched inputs, at its one index. -/
theorem W5_v7 (c : Dev nD) :
    W5 m ρ c (Proc.devRef .tc main_v7)
      = fun _ => auxOf (col0 (m ((c : Thread nD τ).loc main_arg0))) (row0 (m ((c : Thread nD τ).loc main_arg1))) (vec (m ((c : Thread nD τ).loc main_arg2))) := by
  refine (post_v7 (W4 m ρ c)).trans ?_
  rw [W4_v3]
  funext i
  exact tail_eq _ i

end Cert.KernelIdeal.KValue

end
-- ==== Proof.RefValue.lean ====
import proofs.«113240_j7215545057629_1_alg».proof.Proof.Gen.ReferenceIdeal.Run
import proofs.«113240_j7215545057629_1_alg».proof.Proof.Gen.ReferenceIdeal.Read
import proofs.«113240_j7215545057629_1_alg».proof.Proof.Spec
import Idealize.ShloMosaic.Lib.ValueIdx
import Idealize.ShloMosaic.Lib.ValueIdxRank1
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.SL.Sem

variable (x0 : (⟨S8192x1, .f32⟩ : BufTy).Contents (Elt Ideal)) (x1 : (⟨S1x64, .f32⟩ : BufTy).Contents (Elt Ideal))
  (x2 : (⟨S64, .f32⟩ : BufTy).Contents (Elt Ideal))

/-- The reference's projection `x @ W + b` at `(r, k)`: the contraction has one term. -/
theorem v3_apply (r : Fin 8192) (k : Fin 64) :
    val_main_v3 (F := Ideal) x0 x1 x2 (ix2 r k) = proj (col0 x0) (row0 x1) (vec x2) r k := by
  rw [val_main_v3_apply, val_main_v0_apply, val_main_v2_apply, val_main_v1_apply, Fin.sum_univ_one]
  have a0 : lidx_main_v0 (ix2 r k) 0 = ix2 r (0 : Fin 1) :=
    funext fun a => Fin.ext (by match a with | ⟨0, _⟩ => rfl | ⟨1, _⟩ => rfl)
  have a1 : ridx_main_v0 (ix2 r k) 0 = ix2 (0 : Fin 1) k :=
    funext fun a => Fin.ext (by match a with | ⟨0, _⟩ => rfl | ⟨1, _⟩ => rfl)
  have a2 : idx_main_v1 (idx_main_v2 (ix2 r k)) = ix1 k :=
    funext fun a => Fin.ext (by match a with | ⟨0, _⟩ => rfl)
  rw [a0, a1, a2]
  rfl

/-- The reference's normalised rows at `(r, k)`. -/
theorem v11_apply (r : Fin 8192) (k : Fin 64) :
    val_main_v11 (F := Ideal) x0 x1 x2 (ix2 r k) = normed (proj (col0 x0) (row0 x1) (vec x2)) r k := by
  rw [val_main_v11_apply, val_main_v10_apply, val_main_v9_apply, val_main_v8_apply, val_main_v6_apply, val_main_v7_apply,
    val_main_cst_0_apply, val_main_v5_apply, val_main_cst_apply, v3_apply]
  have hsum : (∑ k_1 : Fin 64, val_main_v4 (F := Ideal) x0 x1 x2 (idx_main_v5 (idx_main_v6 (idx_main_v10 (ix2 r k))) k_1))
      = ∑ k_1 : Fin 64, proj (col0 x0) (row0 x1) (vec x2) r k_1 * proj (col0 x0) (row0 x1) (vec x2) r k_1 :=
    Finset.sum_congr rfl fun k_1 _ => by
      have a : idx_main_v5 (idx_main_v6 (idx_main_v10 (ix2 r k))) k_1 = ix2 r k_1 :=
        funext fun a => Fin.ext (by match a with | ⟨0, _⟩ => rfl | ⟨1, _⟩ => rfl)
      rw [a, val_main_v4_apply, v3_apply]; rfl
  rw [hsum]
  unfold normed rowNorm
  simp only [Ideal.hostDivf_def, Ideal.hostUnary_sqrt_def, Ideal.maximumf_def, Ideal.ofBits_def, Ideal.ofBits_zero_f32, zero_add]

/-- The reference's pairwise cosine at `(r, j)`: the normalised row `r` against the normalised row `j`. -/
theorem v13_apply (r j : Fin 8192) :
    val_main_v13 (F := Ideal) x0 x1 x2 (ix2 r j)
      = ∑ k : Fin 64, normed (proj (col0 x0) (row0 x1) (vec x2)) r k * normed (proj (col0 x0) (row0 x1) (vec x2)) j k := by
  rw [val_main_v13_apply]
  refine Finset.sum_congr rfl fun k _ => ?_
  have a0 : lidx_main_v13 (ix2 r j) k = ix2 r k :=
    funext fun a => Fin.ext (by match a with | ⟨0, _⟩ => rfl | ⟨1, _⟩ => rfl)
  have a1 : idx_main_v12 (ridx_main_v13 (ix2 r j) k) = ix2 j k :=
    funext fun a => Fin.ext (by match a with | ⟨0, _⟩ => rfl | ⟨1, _⟩ => rfl)
  rw [val_main_v12_apply, a0, a1, v11_apply, v11_apply]

/-- The row axis of an 8192 x 8192 array reduces to a vector of 8192. -/
theorem red_rows : S8192x8192.Reduces [1] S8192 := by decide

/-- A host maximum over the columns of an 8192 x 8192 array at row `r`: the fold of `max`, from the initial value, over
    the row's entries. -/
theorem hostRowMax_apply (v : FVec Ideal S8192x8192 .f32) (init : FVec Ideal S_ .f32) (r : Fin 8192) :
    Host.reduce FloatOps.maximumf v init reducesTo_S8192x8192_S8192_d1 h_S_ (ix1 r)
      = (Finset.univ : Finset (Fin 8192)).fold max (init (Shape.Idx.first h_S_)) (fun j => v (ix2 r j)) := by
  refine (Host.reduce_eq_fold_single FloatOps.maximumf v init reducesTo_S8192x8192_S8192_d1 red_rows h_S_ (ix1 r)).trans ?_
  refine Finset.fold_congr fun j _ => ?_
  exact congrArg v (funext fun a => Fin.ext (by match a with | ⟨0, _⟩ => rfl | ⟨1, _⟩ => rfl))

/-- The reference's row maximum at `r`: the one stage the generated module does not read. -/
theorem v17_apply (r : Fin 8192) :
    val_main_v17 (F := Ideal) x0 x1 x2 (ix1 r)
      = rowLoss (normed (proj (col0 x0) (row0 x1) (vec x2))) (fun k j => normed (proj (col0 x0) (row0 x1) (vec x2)) j k) r := by
  unfold val_main_v17
  refine (hostRowMax_apply (val_main_v16 (F := Ideal) x0 x1 x2) (val_main_cst_2 (F := Ideal)) r).trans ?_
  unfold rowLoss
  refine Finset.fold_congr fun j _ => ?_
  rw [val_main_v16_apply, val_main_v15_apply, val_main_cst_1_apply, val_main_v14_apply, v13_apply]
  simp only [Ideal.subf_def, Ideal.hostAbsf_def, Ideal.absf_def, Ideal.ofBits_def]

/-- The reference's scalar: the row losses summed from zero, divided by 8192, negated, times one. -/
theorem v21_apply :
    val_main_v21 (F := Ideal) x0 x1 x2 ix0 = auxOf (col0 x0) (row0 x1) (vec x2) := by
  rw [val_main_v21_apply, val_main_cst_5_apply, val_main_v20_apply, val_main_v19_apply, val_main_cst_4_apply,
    val_main_v18_apply, val_main_cst_3_apply]
  have hs : (∑ j : S8192.Idx, val_main_v17 (F := Ideal) x0 x1 x2 j)
      = ∑ r : Fin 8192, rowLoss (normed (proj (col0 x0) (row0 x1) (vec x2)))
          (fun k j => normed (proj (col0 x0) (row0 x1) (vec x2)) j k) r := by
    rw [← Equiv.sum_comp (idxEquiv1 (n := 8192)).symm]
    exact Finset.sum_congr rfl fun r _ => v17_apply x0 x1 x2 r
  rw [hs]
  unfold auxOf aux
  simp only [Ideal.mulf_def, Ideal.hostNegf_def, Ideal.negf_def, Ideal.hostDivf_def, Ideal.ofBits_def]

/-! ## The two results as whole arrays -/

/-- The reference's first result is the projection. -/
theorem res_emb : val_main_v3 (F := Ideal) x0 x1 x2 = arr2 (proj (col0 x0) (row0 x1) (vec x2)) := by
  funext i
  obtain ⟨r, k, rfl⟩ : ∃ (r : Fin 8192) (k : Fin 64), i = ix2 r k := ⟨i 0, i 1, eq_ix2 i⟩
  exact v3_apply x0 x1 x2 r k

/-- The reference's second result is the scalar of the spec, at its one index. -/
theorem res_aux : val_main_v21 (F := Ideal) x0 x1 x2 = fun _ => auxOf (col0 x0) (row0 x1) (vec x2) := by
  funext i
  obtain rfl : i = ix0 := eq_ix0 i
  exact v21_apply x0 x1 x2

end Cert.ReferenceIdeal.RefValue

end
-- ==== Proof.lean ====
/-
  A rank-one projection with its rows normalised, and the largest row loss against all rows, averaged.

  Both programs take a column x of 8192 entries, a row w of 64 and a bias b of 64, and return the 8192 x 64 matrix
  e r k = x r * w k + b k  and one scalar.  For the scalar each row of e is divided by  sqrt (max (Σ k, e r k ^ 2) eps),
  giving n;  the loss of row r is the maximum over j of  1 - |Σ k, n r k * n j k|,  taken from minus infinity;  the
  scalar is  1 * -((0 + Σ r, loss r) / 8192).

  The kernel computes e and n in a first grid of eight blocks of 1024 rows (e as a pointwise product, the contraction
  having a single term), transposes n, and computes the row losses in a second grid of 64 blocks of 128 rows, each
  block a product of 128 rows of n with the whole transpose; the sum over the rows, the division, the sign and the
  factor one follow.  The reference writes the same as matrix products and reductions over whole arrays.  At the extended
  reals the two are one function, term by term: a one-term contraction is its term, a product into a zero
  accumulator is the plain sum, a lane reduction is the reduction over that axis, a change of float format is the
  identity, and a sum over the entries of a one-column array is the sum over its rows.  No law beyond re-indexing
  sums is used, so the inputs' finiteness is never opened.
-/
import proofs.«113240_j7215545057629_1_alg».proof.Defs
import proofs.«113240_j7215545057629_1_alg».proof.Proof.Gen.Kernel
import proofs.«113240_j7215545057629_1_alg».proof.Proof.Gen.Kernel.Skeleton
import proofs.«113240_j7215545057629_1_alg».proof.Proof.Gen.Kernel.Launch
import proofs.«113240_j7215545057629_1_alg».proof.Proof.Gen.Kernel.Points
import proofs.«113240_j7215545057629_1_alg».proof.Proof.Gen.Kernel.Frame
import proofs.«113240_j7215545057629_1_alg».proof.Proof.Gen.KernelIdeal
import proofs.«113240_j7215545057629_1_alg».proof.Proof.Gen.KernelIdeal.Skeleton
import proofs.«113240_j7215545057629_1_alg».proof.Proof.Gen.KernelIdeal.Launch
import proofs.«113240_j7215545057629_1_alg».proof.Proof.Gen.KernelIdeal.Points
import proofs.«113240_j7215545057629_1_alg».proof.Proof.Gen.KernelIdeal.Frame
import proofs.«113240_j7215545057629_1_alg».proof.Proof.Gen.ReferenceIdeal
import proofs.«113240_j7215545057629_1_alg».proof.Proof.Gen.ReferenceIdeal.Run
import proofs.«113240_j7215545057629_1_alg».proof.Proof.Gen.ReferenceIdeal.Read
import proofs.«113240_j7215545057629_1_alg».proof.Proof.Gen.Pre_finite_inputs
import proofs.«113240_j7215545057629_1_alg».proof.Proof.Spec
import proofs.«113240_j7215545057629_1_alg».proof.Proof.KernelRun
import proofs.«113240_j7215545057629_1_alg».proof.Proof.KernelValue
import proofs.«113240_j7215545057629_1_alg».proof.Proof.RefValue
import Idealize.ShloMosaic.Adequacy
import Idealize.ShloMosaic.Init

noncomputable section

namespace Cert.Proof

open Idealize.ShloMosaic Idealize.SL.Sem Cert.Spec

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the three inputs, both programs end with the projection in the first result and the
    averaged, negated row loss in the second. -/
theorem algebraic : Cert.algebraic_KernelIdeal_ReferenceIdeal := by
  intro m ρ m' ρ' _ hagree
  refine ⟨fun c => arr2 (Cert.KernelIdeal.KValue.e m c),
    fun c => fun _ => auxOf (col0 (m ((c.tc : Thread Cert.KernelIdeal.nD Cert.KernelIdeal.τ).loc Cert.KernelIdeal.main_arg0)))
      (row0 (m ((c.tc : Thread Cert.KernelIdeal.nD Cert.KernelIdeal.τ).loc Cert.KernelIdeal.main_arg1)))
      (vec (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.KValue.W5_v1_0 m ρ c),
        (h c).2.1.trans (Cert.KernelIdeal.KValue.W5_v7 m ρ c), (h c).2.2⟩)
      (Cert.KernelIdeal.Run.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · exact (Cert.ReferenceIdeal.Read.val_main_v3_eq (F := Ideal) _ _ _).trans
        ((Cert.ReferenceIdeal.RefValue.res_emb _ _ _).trans (by rw [(hagree c).1, (hagree c).2.1, (hagree c).2.2]))
    · exact (Cert.ReferenceIdeal.Read.val_main_v21_eq (F := Ideal) _ _ _).trans
        ((Cert.ReferenceIdeal.RefValue.res_aux _ _ _).trans (by rw [(hagree c).1, (hagree c).2.1, (hagree c).2.2]; rfl))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
